-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  main_v53

def fn_part2 {F : FTy → Type} [FloatOps F] (main_arg9 : FVec F S128x128 .f32) (main_arg10 : FVec F S128x3 .f32) (main_arg11 : FVec F S3 .f32) (main_arg12 : FVec F S128x3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x3 .f32 := Host.absf main_arg10
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S128x3 .f32 := Host.absf main_arg12
  let main_cst_18 : FVec F S_ .f32 := constant S_ .f32 0x7F800000#32
  let main_v50 : FVec F S128x3 .f32 := broadcastInDim S128x3 ![] bcast_S_S128x3 main_cst_18
  fn_part3 (F := F) main_v48 main_v49 main_v50

def fn_part1 {F : FTy → Type} [FloatOps F] (main_arg6 : FVec F S2x128 .f32) (main_arg7 : FVec F S128x128 .f32) (main_arg8 : FVec F S128 .f32) (main_arg9 : FVec F S128x128 .f32) (main_arg10 : FVec F S128x3 .f32) (main_arg11 : FVec F S3 .f32) (main_arg12 : FVec F S128x3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x2 .f32) (main_arg1 : IVec S2x1600000 32) (main_arg2 : FVec F S1600000 .f32) (main_arg3 : IVec S100000 32) (main_arg4 : FVec F S2x128 .f32) (main_arg5 : FVec F S128 .f32) (main_arg6 : FVec F S2x128 .f32) (main_arg7 : FVec F S128x128 .f32) (main_arg8 : FVec F S128 .f32) (main_arg9 : FVec F S128x128 .f32) (main_arg10 : FVec F S128x3 .f32) (main_arg11 : FVec F S3 .f32) (main_arg12 : FVec F S128x3 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S_ : Shape := ⟨0, ![]⟩
abbrev S1600000x1 : Shape := ⟨2, ![1600000, 1]⟩
abbrev S1600000x2 : Shape := ⟨2, ![1600000, 2]⟩
abbrev S1x128 : Shape := ⟨2, ![1, 128]⟩
abbrev S100000x128 : Shape := ⟨2, ![100000, 128]⟩
abbrev S5000x2 : Shape := ⟨2, ![5000, 2]⟩
abbrev S5000x128 : Shape := ⟨2, ![5000, 128]⟩
abbrev S1600000x128 : Shape := ⟨2, ![1600000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 71
  | .vmem => 27
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x3, .f32⟩
  | .hbm, ⟨11, _⟩ => ⟨S3, .f32⟩
  | .hbm, ⟨12, _⟩ => ⟨S128x3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x2, .f32⟩
  | .hbm, ⟨28, _⟩ => ⟨S1600000x2, .f32⟩
  | .hbm, ⟨29, _⟩ => ⟨S_, .f32⟩
  | .hbm, ⟨30, _⟩ => ⟨S100000x2, .f32⟩
  | .hbm, ⟨31, _⟩ => ⟨S1600000x1, .i32⟩
  | .hbm, ⟨32, _⟩ => ⟨S100000x2, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x1, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x3, .f32⟩
  | .hbm, ⟨70, _⟩ => ⟨S100000x3, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x128, .f32⟩
  | .local _ .vmem, ⟨5, _⟩ => ⟨S1x128, .f32⟩
  | .local _ .vmem, ⟨6, _⟩ => ⟨S2x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x3, .f32⟩
  | .local _ .vmem, ⟨23, _⟩ => ⟨S1x3, .f32⟩
  | .local _ .vmem, ⟨24, _⟩ => ⟨S128x3, .f32⟩
  | .local _ .vmem, ⟨25, _⟩ => ⟨S5000x3, .f32⟩
  | .local _ .vmem, ⟨26, _⟩ => ⟨S5000x3, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S128_S1x128 : S128.ShapeCasts S1x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S5000x2_S2x128_S5000x128_1_0_0_1_n_n_wf : DotDims.WF S5000x2 S2x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x3.size a ≤ S128x3.size a
  hwx2_2 : ∀ i : grid2.Coords, EltTy.bits .f32 = 32 ∨ (Rect.block (s := S128x3) S128x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x3.size a ≤ S1x3.size a
  hwx2_3 : ∀ i : grid2.Coords, EltTy.bits .f32 = 32 ∨ (Rect.block (s := S1x3) S1x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x3.size a ≤ S128x3.size a
  hwx2_4 : ∀ i : grid2.Coords, EltTy.bits .f32 = 32 ∨ (Rect.block (s := S128x3) S128x3.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x3.size a ≤ S100000x3.size a
  hwx2_5 : ∀ i : grid2.Coords, EltTy.bits .f32 = 32 ∨ (Rect.block (s := S100000x3) S5000x3.size (cc2_transform_5 i) (hinb2_5 i)).WholeWords (EltTy.packing .f32)

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v16) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x3.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x128 : Shape := ⟨2, ![2, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x1600000 : Shape := ⟨2, ![1, 1600000]⟩
abbrev S_ : Shape := ⟨0, ![]⟩
abbrev S1600000x1 : Shape := ⟨2, ![1600000, 1]⟩
abbrev S1600000x2 : Shape := ⟨2, ![1600000, 2]⟩
abbrev S100000x128 : Shape := ⟨2, ![100000, 128]⟩
abbrev S1x128 : Shape := ⟨2, ![1, 128]⟩
abbrev S1600000x128 : Shape := ⟨2, ![1600000, 128]⟩
abbrev S100000x3 : Shape := ⟨2, ![100000, 3]⟩
abbrev S1x3 : Shape := ⟨2, ![1, 3]⟩

abbrev nBuf : Space → Nat
  | .hbm => 89
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x128, .f32⟩
  | .hbm, ⟨5, _⟩ => ⟨S128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x3, .f32⟩
  | .hbm, ⟨11, _⟩ => ⟨S3, .f32⟩
  | .hbm, ⟨12, _⟩ => ⟨S128x3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x2, .f32⟩
  | .hbm, ⟨28, _⟩ => ⟨S1600000x2, .f32⟩
  | .hbm, ⟨29, _⟩ => ⟨S_, .f32⟩
  | .hbm, ⟨30, _⟩ => ⟨S100000x2, .f32⟩
  | .hbm, ⟨31, _⟩ => ⟨S1600000x1, .i32⟩
  | .hbm, ⟨32, _⟩ => ⟨S100000x2, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x3, .f32⟩
  | .hbm, ⟨84, _⟩ => ⟨S1x3, .f32⟩
  | .hbm, ⟨85, _⟩ => ⟨S100000x3, .f32⟩
  | .hbm, ⟨86, _⟩ => ⟨S100000x3, .f32⟩
  | .hbm, ⟨87, _⟩ => ⟨S100000x3, .f32⟩
  | .hbm, ⟨88, _⟩ => ⟨S100000x3, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_c_1 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_v43 : Ref sig .tc := ⟨.hbm, 66, rfl⟩
abbrev main_c_4 : Ref sig .tc := ⟨.hbm, 67, rfl⟩
abbrev main_v44 : Ref sig .tc := ⟨.hbm, 68, rfl⟩
abbrev main_v45 : Ref sig .tc := ⟨.hbm, 69, rfl⟩
abbrev main_c_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S100000x2_S2x128_S100000x128_1_0_0_1_n_n_wf : DotDims.WF S100000x2 S2x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.Layers.lean ====
/-
  The network both programs compute, as whole-array functions over the reference's literal shapes.

  One message-passing layer is  h' = act( (A(h) · W_rel + b) + h · W_root ),  where the aggregation
  A(h)[n, :] = Σ over edges e with dst(e) = n of  w(e) · h[src(e), :]  is a gather of rows by the (wrapped) source
  index, a product with the broadcast edge weight, and a scatter-add into zeros at the destination index.
  The aggregation is carried as ONE function of (h, edge_index, edge_weight) and never opened: both programs apply
  the same operations to it. The dense half is read index by index at the exact instance: a product of matrices
  is the finite sum over the contracted axis, the bias is read at its column, `act` is `max · 0` for the first two
  layers and the identity for the third.
-/
import proofs.«145444_j32693291057797_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Layers

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The aggregation: gather by source, weight, scatter-add by destination -/

/-- Two-channel aggregation of the input features. -/
def agg2 (h : FVec F S100000x2 .f32) (e : (⟨S2x1600000, .i32⟩ : BufTy).Contents (Elt F)) (w : FVec F S1600000 .f32) : FVec F S100000x2 .f32 :=
  Host.scatterAdd scatter_S100000x2_S1600000x1_S1600000x2_1_0_0_1 (val_main_v14 (F := F)) (val_main_v15 (F := F) e)
    (mulf (Host.gather gather_S100000x2_S1600000x1_S1600000x2_1_0_n_n_0_1_12 h (val_main_v9 (F := F) e)) (val_main_v12 (F := F) w))

/-- 128-channel aggregation of a hidden layer. -/
def agg128 (h : FVec F S100000x128 .f32) (e : (⟨S2x1600000, .i32⟩ : BufTy).Contents (Elt F)) (w : FVec F S1600000 .f32) : FVec F S100000x128 .f32 :=
  Host.scatterAdd scatter_S100000x128_S1600000x1_S1600000x128_1_0_0_1 (val_main_v34 (F := F)) (val_main_v35 (F := F) e)
    (mulf (Host.gather gather_S100000x128_S1600000x1_S1600000x128_1_0_n_n_0_1_1128 h (val_main_v29 (F := F) e)) (val_main_v32 (F := F) w))

/-! ## The dense half of each layer -/

/-- Layer 1: 2 → 128 channels, rectified. The bias enters as a [1, 128] row. -/
def dense1 (a h : FVec F S100000x2 .f32) (wr : FVec F S2x128 .f32) (b : FVec F S1x128 .f32) (wt : FVec F S2x128 .f32) : FVec F S100000x128 .f32 :=
  maximumf (addf (addf (Host.dotGeneral dot_S100000x2_S2x128_S100000x128_1_0_0_1_n_n none a wr)
      (broadcastInDim S100000x128 ![0, 1] bcast_S1x128_S100000x128_0_1 b))
    (Host.dotGeneral dot_S100000x2_S2x128_S100000x128_1_0_0_1_n_n none h wt))
    (broadcastInDim S100000x128 ![] bcast_S_S100000x128 (constant S_ .f32 0x00000000#32))

/-- Layer 2: 128 → 128 channels, rectified. -/
def dense2 (a h : FVec F S100000x128 .f32) (wr : FVec F S128x128 .f32) (b : FVec F S1x128 .f32) (wt : FVec F S128x128 .f32) : FVec F S100000x128 .f32 :=
  maximumf (addf (addf (Host.dotGeneral dot_S100000x128_S128x128_S100000x128_1_0_0_1_n_n none a wr)
      (broadcastInDim S100000x128 ![0, 1] bcast_S1x128_S100000x128_0_1 b))
    (Host.dotGeneral dot_S100000x128_S128x128_S100000x128_1_0_0_1_n_n none h wt))
    (broadcastInDim S100000x128 ![] bcast_S_S100000x128 (constant S_ .f32 0x00000000#32))

/-- Layer 3: 128 → 3 channels, not rectified. -/
def dense3 (a h : FVec F S100000x128 .f32) (wr : FVec F S128x3 .f32) (b : FVec F S1x3 .f32) (wt : FVec F S128x3 .f32) : FVec F S100000x3 .f32 :=
  addf (addf (Host.dotGeneral dot_S100000x128_S128x3_S100000x3_1_0_0_1_n_n none a wr)
      (broadcastInDim S100000x3 ![0, 1] bcast_S1x3_S100000x3_0_1 b))
    (Host.dotGeneral dot_S100000x128_S128x3_S100000x3_1_0_0_1_n_n none h wt)

/-- The three layers composed. -/
def net (x : FVec F S100000x2 .f32) (e : (⟨S2x1600000, .i32⟩ : BufTy).Contents (Elt F)) (w : FVec F S1600000 .f32)
    (w1r : FVec F S2x128 .f32) (b1 : FVec F S1x128 .f32) (w1t : FVec F S2x128 .f32)
    (w2r : FVec F S128x128 .f32) (b2 : FVec F S1x128 .f32) (w2t : FVec F S128x128 .f32)
    (w3r : FVec F S128x3 .f32) (b3 : FVec F S1x3 .f32) (w3t : FVec F S128x3 .f32) : FVec F S100000x3 .f32 :=
  dense3 (agg128 (dense2 (agg128 (dense1 (agg2 x e w) x w1r b1 w1t) e w) (dense1 (agg2 x e w) x w1r b1 w1t) w2r b2 w2t) e w)
    (dense2 (agg128 (dense1 (agg2 x e w) x w1r b1 w1t) e w) (dense1 (agg2 x e w) x w1r b1 w1t) w2r b2 w2t) w3r b3 w3t

/-- The reference's last stage is the composed network of its arguments, each bias as the row the reference broadcasts
    it to: the stages unfold to the same operations in the same order. -/
theorem ref_is_net (x0 : FVec F S100000x2 .f32) (x1 : (⟨S2x1600000, .i32⟩ : BufTy).Contents (Elt F)) (x2 : FVec F S1600000 .f32)
    (x4 : FVec F S2x128 .f32) (x5 : FVec F S128 .f32) (x6 : FVec F S2x128 .f32)
    (x7 : FVec F S128x128 .f32) (x8 : FVec F S128 .f32) (x9 : FVec F S128x128 .f32)
    (x10 : FVec F S128x3 .f32) (x11 : FVec F S3 .f32) (x12 : FVec F S128x3 .f32) :
    val_main_v62 (F := F) x0 x1 x2 x4 x5 x6 x7 x8 x9 x10 x11 x12
      = net x0 x1 x2 x4 (val_main_v18 (F := F) x5) x6 x7 (val_main_v38 (F := F) x8) x9 x10 (val_main_v58 (F := F) x11) x12 := by
  unfold net dense3 dense2 dense1 agg128 agg2
  unfold val_main_v62 val_main_v61 val_main_v60 val_main_v59 val_main_v57 val_main_v56 val_main_v53 val_main_v50
    val_main_v43 val_main_v42 val_main_v41 val_main_v40 val_main_v39 val_main_v37 val_main_v36 val_main_v33 val_main_v30
    val_main_v23 val_main_v22 val_main_v21 val_main_v20 val_main_v19 val_main_v17 val_main_v16 val_main_v13 val_main_v10
  rfl

end Cert.Layers

end
-- ==== Proof.LayersAt.lean ====
/-
  The dense half of each layer read at one entry, at the exact instance: entry (n, j) of
  act((A · W_rel + b) + H · W_root) is  act((Σ_k A[n,k] · W_rel[k,j] + b[0,j]) + Σ_k H[n,k] · W_root[k,j]).
  The index functions are the reference's own (which row of the left factor, which column of the right, which
  column of the bias row an output entry reads).
-/
import proofs.«145444_j32693291057797_1_alg».proof.Proof.Layers

noncomputable section

namespace Cert.Layers

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## Matrix products on the host, at an entry -/

/-- A product of a 100000x2 by a 2x128 matrix on the host, read at an entry: the sum over the contracted axis. -/
theorem dotA_apply (l : FVec Ideal S100000x2 .f32) (r : FVec Ideal S2x128 .f32) (i : S100000x128.Idx) :
    Host.dotGeneral dot_S100000x2_S2x128_S100000x128_1_0_0_1_n_n none l r i = ∑ k : Fin 2, l (lidx_main_v21 i k) * r (ridx_main_v21 i k) :=
  val_main_v21_apply l r i

/-- A product of a 100000x128 by a 128x128 matrix on the host, read at an entry: the sum over the contracted axis. -/
theorem dotB_apply (l : FVec Ideal S100000x128 .f32) (r : FVec Ideal S128x128 .f32) (i : S100000x128.Idx) :
    Host.dotGeneral dot_S100000x128_S128x128_S100000x128_1_0_0_1_n_n none l r i = ∑ k : Fin 128, l (lidx_main_v41 i k) * r (ridx_main_v41 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v41 i k := funext fun a => Fin.ext (by
    match a with
    | ⟨0, _⟩ => exact lhs_main_v41_0 _ _
    | ⟨1, _⟩ => exact (lhs_main_v41_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v41 i k := funext fun a => Fin.ext (by
    match a with
    | ⟨0, _⟩ => exact (rhs_main_v41_0 _ _).trans hk
    | ⟨1, _⟩ => exact rhs_main_v41_1 _ _)
  rw [el, er]

/-- A product of a 100000x128 by a 128x3 matrix on the host, read at an entry: the sum over the contracted axis. -/
theorem dotC_apply (l : FVec Ideal S100000x128 .f32) (r : FVec Ideal S128x3 .f32) (i : S100000x3.Idx) :
    Host.dotGeneral dot_S100000x128_S128x3_S100000x3_1_0_0_1_n_n none l r i = ∑ k : Fin 128, l (lidx_main_v61 i k) * r (ridx_main_v61 i k) := by
  simp only [Host.dotGeneral]
  rw [Ideal.dotGeneral_apply, ← Equiv.sum_comp (ValueIdx.contrEquiv1 dot_S100000x128_S128x3_S100000x3_1_0_0_1_n_n 128 rfl rfl).symm]
  refine Finset.sum_congr rfl fun k _ => ?_
  have hk := ValueIdx.contrEquiv1_symm_val dot_S100000x128_S128x3_S100000x3_1_0_0_1_n_n 128 rfl rfl k
  have el : dot_S100000x128_S128x3_S100000x3_1_0_0_1_n_n.lhsIdx i ((ValueIdx.contrEquiv1 dot_S100000x128_S128x3_S100000x3_1_0_0_1_n_n 128 rfl rfl).symm k) = lidx_main_v61 i k := funext fun a => Fin.ext (by
    match a with
    | ⟨0, _⟩ => exact lhs_main_v61_0 _ _
    | ⟨1, _⟩ => exact (lhs_main_v61_1 _ _).trans hk)
  have er : dot_S100000x128_S128x3_S100000x3_1_0_0_1_n_n.rhsIdx i ((ValueIdx.contrEquiv1 dot_S100000x128_S128x3_S100000x3_1_0_0_1_n_n 128 rfl rfl).symm k) = ridx_main_v61 i k := funext fun a => Fin.ext (by
    match a with
    | ⟨0, _⟩ => exact (rhs_main_v61_0 _ _).trans hk
    | ⟨1, _⟩ => exact rhs_main_v61_1 _ _)
  rw [el, er]

/-! ## The bias row broadcast down the rows, at an entry -/

theorem biasrow128_apply {F : FTy → Type} [FloatOps F] (b : FVec F S1x128 .f32) (i : S100000x128.Idx) :
    broadcastInDim S100000x128 ![0, 1] bcast_S1x128_S100000x128_0_1 b i = b (idx_main_v19 i) :=
  broadcastInDim_apply _ bcast_S1x128_S100000x128_0_1 b i (idx_main_v19 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem biasrow3_apply {F : FTy → Type} [FloatOps F] (b : FVec F S1x3 .f32) (i : S100000x3.Idx) :
    broadcastInDim S100000x3 ![0, 1] bcast_S1x3_S100000x3_0_1 b i = b (idx_main_v59 i) :=
  broadcastInDim_apply _ bcast_S1x3_S100000x3_0_1 b i (idx_main_v59 i) (fun a => match a with
    | ⟨0, _⟩ => by show 0 = if (1 : Nat) = 1 then 0 else (i 0).val; rw [if_pos rfl]
    | ⟨1, _⟩ => by show (i 1).val = if (3 : Nat) = 1 then 0 else (i 1).val; rw [if_neg (by decide)])

/-! ## The layers at an entry -/

theorem dense1_apply (a h : FVec Ideal S100000x2 .f32) (wr : FVec Ideal S2x128 .f32) (b : FVec Ideal S1x128 .f32) (wt : FVec Ideal S2x128 .f32) (i : S100000x128.Idx) :
    dense1 (F := Ideal) a h wr b wt i
      = max ((∑ k : Fin 2, a (lidx_main_v21 i k) * wr (ridx_main_v21 i k) + b (idx_main_v19 i))
          + ∑ k : Fin 2, h (lidx_main_v21 i k) * wt (ridx_main_v21 i k)) (Ideal.ofBits .f32 0x00000000#32) := by
  unfold dense1
  rw [maximumf_apply, addf_apply, addf_apply, dotA_apply, dotA_apply, biasrow128_apply]
  rfl

theorem dense2_apply (a h : FVec Ideal S100000x128 .f32) (wr : FVec Ideal S128x128 .f32) (b : FVec Ideal S1x128 .f32) (wt : FVec Ideal S128x128 .f32) (i : S100000x128.Idx) :
    dense2 (F := Ideal) a h wr b wt i
      = max ((∑ k : Fin 128, a (lidx_main_v41 i k) * wr (ridx_main_v41 i k) + b (idx_main_v19 i))
          + ∑ k : Fin 128, h (lidx_main_v41 i k) * wt (ridx_main_v41 i k)) (Ideal.ofBits .f32 0x00000000#32) := by
  unfold dense2
  rw [maximumf_apply, addf_apply, addf_apply, dotB_apply, dotB_apply, biasrow128_apply]
  rfl

theorem dense3_apply (a h : FVec Ideal S100000x128 .f32) (wr : FVec Ideal S128x3 .f32) (b : FVec Ideal S1x3 .f32) (wt : FVec Ideal S128x3 .f32) (i : S100000x3.Idx) :
    dense3 (F := Ideal) a h wr b wt i
      = (∑ k : Fin 128, a (lidx_main_v61 i k) * wr (ridx_main_v61 i k) + b (idx_main_v59 i))
          + ∑ k : Fin 128, h (lidx_main_v61 i k) * wt (ridx_main_v61 i k) := by
  unfold dense3
  rw [addf_apply, addf_apply, dotC_apply, dotC_apply, biasrow3_apply]

end Cert.Layers

end
-- ==== Proof.Chain.lean ====
/-
  The kernel program's result, as the network of its arguments.

  Between the launch and the return the buffers' contents pass six boundaries: after the first stretch of host
  operations (the first aggregation; the bias reshaped to a row), after region 0 (layer 1's output array), after the
  second stretch (the second aggregation, of layer 1's output), after region 1, after the third stretch, after region 2.
  Each buffer a later step reads is followed from boundary to boundary: a stretch of host operations leaves a buffer it
  does not write as it was and computes the aggregation as the same gather, product and scatter-add the reference
  applies; a region leaves every buffer but its result array as it was, and its result array at the dense half of the
  layer (Dense0 … Dense2). Composed, the result buffer ends at `net` of the arguments.
-/
import proofs.«145444_j32693291057797_1_alg».proof.Proof.Dense0
import proofs.«145444_j32693291057797_1_alg».proof.Proof.Dense1
import proofs.«145444_j32693291057797_1_alg».proof.Proof.Dense2
import proofs.«145444_j32693291057797_1_alg».proof.Proof.KernelRun
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Layers Cert.ReferenceIdeal.Read

variable (m : (ℓ : Loc nD τ sig) → Buf (Elt Ideal) ℓ) (ρ : Dev nD → PrngReg)

/-! ## Buffers that only the first stretch writes, or nothing writes, carried from boundary to boundary -/

theorem at1_main_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
theorem at2_main_v1 (c : Dev nD) : W2 m ρ c (Proc.devRef .tc main_v1) = val_main_v1 (F := Ideal) (m ((c : Thread nD τ).loc main_arg1)) :=
  (W2_of_ne m ρ c main_v1 (by decide)).trans (at1_main_v1 m ρ c)
theorem at3_main_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  exact at2_main_v1 m ρ c
theorem at4_main_v1 (c : Dev nD) : W4 m ρ c (Proc.devRef .tc main_v1) = val_main_v1 (F := Ideal) (m ((c : Thread nD τ).loc main_arg1)) :=
  (W4_of_ne m ρ c main_v1 (by decide)).trans (at3_main_v1 m ρ c)

theorem at1_main_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
theorem at2_main_v3 (c : Dev nD) : W2 m ρ c (Proc.devRef .tc main_v3) = val_main_v3 (F := Ideal) (m ((c : Thread nD τ).loc main_arg1)) :=
  (W2_of_ne m ρ c main_v3 (by decide)).trans (at1_main_v3 m ρ c)
theorem at3_main_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact at2_main_v3 m ρ c
theorem at4_main_v3 (c : Dev nD) : W4 m ρ c (Proc.devRef .tc main_v3) = val_main_v3 (F := Ideal) (m ((c : Thread nD τ).loc main_arg1)) :=
  (W4_of_ne m ρ c main_v3 (by decide)).trans (at3_main_v3 m ρ c)

theorem at1_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem at2_main_arg2 (c : Dev nD) : W2 m ρ c (Proc.devRef .tc main_arg2) = m ((c : Thread nD τ).loc main_arg2) :=
  (W2_of_ne m ρ c main_arg2 (by decide)).trans (at1_main_arg2 m ρ c)
theorem at3_main_arg2 (c : Dev nD) : W3 m ρ c (Proc.devRef .tc main_arg2) = m ((c : Thread nD τ).loc main_arg2) := by
  show StableHlo.after hostOps1 (W2 m ρ c) (Proc.devRef .tc main_arg2) = _
  after_results_simp
  exact at2_main_arg2 m ρ c
theorem at4_main_arg2 (c : Dev nD) : W4 m ρ c (Proc.devRef .tc main_arg2) = m ((c : Thread nD τ).loc main_arg2) :=
  (W4_of_ne m ρ c main_arg2 (by decide)).trans (at3_main_arg2 m ρ c)

theorem at1_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem at1_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl

theorem at1_main_arg6 (c : Dev nD) : W1 m ρ c (Proc.devRef .tc main_arg6) = m ((c : Thread nD τ).loc main_arg6) := by
  show StableHlo.after hostOps0 (W0 m ρ c) (Proc.devRef .tc main_arg6) = _
  after_results_simp <;> rfl

theorem at1_main_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem at2_main_arg7 (c : Dev nD) : W2 m ρ c (Proc.devRef .tc main_arg7) = m ((c : Thread nD τ).loc main_arg7) :=
  (W2_of_ne m ρ c main_arg7 (by decide)).trans (at1_main_arg7 m ρ c)
theorem at3_main_arg7 (c : Dev nD) : W3 m ρ c (Proc.devRef .tc main_arg7) = m ((c : Thread nD τ).loc main_arg7) := by
  show StableHlo.after hostOps1 (W2 m ρ c) (Proc.devRef .tc main_arg7) = _
  after_results_simp
  exact at2_main_arg7 m ρ c

theorem at1_main_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem at2_main_arg8 (c : Dev nD) : W2 m ρ c (Proc.devRef .tc main_arg8) = m ((c : Thread nD τ).loc main_arg8) :=
  (W2_of_ne m ρ c main_arg8 (by decide)).trans (at1_main_arg8 m ρ c)

theorem at1_main_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem at2_main_arg9 (c : Dev nD) : W2 m ρ c (Proc.devRef .tc main_arg9) = m ((c : Thread nD τ).loc main_arg9) :=
  (W2_of_ne m ρ c main_arg9 (by decide)).trans (at1_main_arg9 m ρ c)
theorem at3_main_arg9 (c : Dev nD) : W3 m ρ c (Proc.devRef .tc main_arg9) = m ((c : Thread nD τ).loc main_arg9) := by
  show StableHlo.after hostOps1 (W2 m ρ c) (Proc.devRef .tc main_arg9) = _
  after_results_simp
  exact at2_main_arg9 m ρ c

theorem at1_main_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem at2_main_arg10 (c : Dev nD) : W2 m ρ c (Proc.devRef .tc main_arg10) = m ((c : Thread nD τ).loc main_arg10) :=
  (W2_of_ne m ρ c main_arg10 (by decide)).trans (at1_main_arg10 m ρ c)
theorem at3_main_arg10 (c : Dev nD) : W3 m ρ c (Proc.devRef .tc main_arg10) = m ((c : Thread nD τ).loc main_arg10) := by
  show StableHlo.after hostOps1 (W2 m ρ c) (Proc.devRef .tc main_arg10) = _
  after_results_simp
  exact at2_main_arg10 m ρ c
theorem at4_main_arg10 (c : Dev nD) : W4 m ρ c (Proc.devRef .tc main_arg10) = m ((c : Thread nD τ).loc main_arg10) :=
  (W4_of_ne m ρ c main_arg10 (by decide)).trans (at3_main_arg10 m ρ c)
theorem at5_main_arg10 (c : Dev nD) : W5 m ρ c (Proc.devRef .tc main_arg10) = m ((c : Thread nD τ).loc main_arg10) := by
  show StableHlo.after hostOps2 (W4 m ρ c) (Proc.devRef .tc main_arg10) = _
  after_results_simp
  exact at4_main_arg10 m ρ c

theorem at1_main_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem at2_main_arg11 (c : Dev nD) : W2 m ρ c (Proc.devRef .tc main_arg11) = m ((c : Thread nD τ).loc main_arg11) :=
  (W2_of_ne m ρ c main_arg11 (by decide)).trans (at1_main_arg11 m ρ c)
theorem at3_main_arg11 (c : Dev nD) : W3 m ρ c (Proc.devRef .tc main_arg11) = m ((c : Thread nD τ).loc main_arg11) := by
  show StableHlo.after hostOps1 (W2 m ρ c) (Proc.devRef .tc main_arg11) = _
  after_results_simp
  exact at2_main_arg11 m ρ c
theorem at4_main_arg11 (c : Dev nD) : W4 m ρ c (Proc.devRef .tc main_arg11) = m ((c : Thread nD τ).loc main_arg11) :=
  (W4_of_ne m ρ c main_arg11 (by decide)).trans (at3_main_arg11 m ρ c)

theorem at1_main_arg12 (c : Dev nD) : W1 m ρ c (Proc.devRef .tc main_arg12) = m ((c : Thread nD τ).loc main_arg12) := by
  show StableHlo.after hostOps0 (W0 m ρ c) (Proc.devRef .tc main_arg12) = _
  after_results_simp <;> rfl
theorem at2_main_arg12 (c : Dev nD) : W2 m ρ c (Proc.devRef .tc main_arg12) = m ((c : Thread nD τ).loc main_arg12) :=
  (W2_of_ne m ρ c main_arg12 (by decide)).trans (at1_main_arg12 m ρ c)
theorem at3_main_arg12 (c : Dev nD) : W3 m ρ c (Proc.devRef .tc main_arg12) = m ((c : Thread nD τ).loc main_arg12) := by
  show StableHlo.after hostOps1 (W2 m ρ c) (Proc.devRef .tc main_arg12) = _
  after_results_simp
  exact at2_main_arg12 m ρ c
theorem at4_main_arg12 (c : Dev nD) : W4 m ρ c (Proc.devRef .tc main_arg12) = m ((c : Thread nD τ).loc main_arg12) :=
  (W4_of_ne m ρ c main_arg12 (by decide)).trans (at3_main_arg12 m ρ c)
theorem at5_main_arg12 (c : Dev nD) : W5 m ρ c (Proc.devRef .tc main_arg12) = m ((c : Thread nD τ).loc main_arg12) := by
  show StableHlo.after hostOps2 (W4 m ρ c) (Proc.devRef .tc main_arg12) = _
  after_results_simp
  exact at4_main_arg12 m ρ c

/-! ## Layer 1 -/

set_option maxHeartbeats 4000000 in
/-- The first stretch computes the two-channel aggregation of the input features. -/
theorem at1_main_v16 (c : Dev nD) : W1 m ρ c (Proc.devRef .tc main_v16) = agg2 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  after_results_simp
  rfl

set_option maxHeartbeats 4000000 in
/-- The bias, reshaped to a row before the region, is the row the reference broadcasts it to: entry (0, j) of both is entry j. -/
theorem at1_main_v17 (c : Dev nD) : W1 m ρ c (Proc.devRef .tc main_v17) = val_main_v18 (F := Ideal) (m ((c : Thread nD τ).loc main_arg5)) := by
  show StableHlo.after hostOps0 (W0 m ρ c) (Proc.devRef .tc main_v17) = _
  after_results_simp
  funext (i : Cert.ReferenceIdeal.S1x128.Idx)
  refine (shapeCast_apply _ _ i (idx_main_v18 i) ?_).trans (val_main_v18_apply _ i).symm
  show (Cert.ReferenceIdeal.S128.rowMajor (idx_main_v18 i)).val = (Cert.ReferenceIdeal.S1x128.rowMajor i).val
  rewrite [Shape.rowMajor_val_two, Shape.rowMajor_val_one]
  have h0 : (i 0).val < 1 := (i 0).isLt
  show (i 1).val = (i 0).val * 128 + (i 1).val
  omega

/-- Layer 1's output as a function of the arguments. -/
abbrev hid1 (c : Dev nD) : FVec Ideal Cert.ReferenceIdeal.S100000x128 .f32 :=
  dense1 (F := Ideal) (agg2 (F := Ideal) (m ((c : Thread nD τ).loc main_arg0)) (m ((c : Thread nD τ).loc main_arg1)) (m ((c : Thread nD τ).loc main_arg2))) (m ((c : Thread nD τ).loc main_arg0)) (m ((c : Thread nD τ).loc main_arg4)) (val_main_v18 (F := Ideal) (m ((c : Thread nD τ).loc main_arg5))) (m ((c : Thread nD τ).loc main_arg6))

theorem at2_main_v18 (c : Dev nD) : W2 m ρ c (Proc.devRef .tc main_v18) = hid1 m c := by
  refine ((W2_arr m ρ c 5).trans (Dense0.final (V1 m ρ) c)).trans ?_
  show dense1 (F := Ideal) (W1 m ρ c (Proc.devRef .tc main_v16)) (W1 m ρ c (Proc.devRef .tc main_arg0)) (W1 m ρ c (Proc.devRef .tc main_arg4)) (W1 m ρ c (Proc.devRef .tc main_v17)) (W1 m ρ c (Proc.devRef .tc main_arg6)) = _
  rw [at1_main_v16 m ρ c, at1_main_arg0 m ρ c, at1_main_arg4 m ρ c, at1_main_v17 m ρ c, at1_main_arg6 m ρ c]

/-! ## Layer 2 -/

theorem at3_main_v18 (c : Dev nD) : W3 m ρ c (Proc.devRef .tc main_v18) = hid1 m c := by
  show StableHlo.after hostOps1 (W2 m ρ c) (Proc.devRef .tc main_v18) = _
  after_results_simp
  exact at2_main_v18 m ρ c

set_option maxHeartbeats 4000000 in
/-- The second stretch computes the aggregation of layer 1's output. -/
theorem at3_main_v31 (c : Dev nD) : W3 m ρ c (Proc.devRef .tc main_v31) = agg128 (F := Ideal) (hid1 m c) (m ((c : Thread nD τ).loc main_arg1)) (m ((c : Thread nD τ).loc main_arg2)) := by
  show StableHlo.after hostOps1 (W2 m ρ c) (Proc.devRef .tc main_v31) = _
  after_results_simp
  rw [at2_main_v18 m ρ c, at2_main_v1 m ρ c, at2_main_v3 m ρ c, at2_main_arg2 m ρ c]
  rfl

set_option maxHeartbeats 4000000 in
/-- The bias, reshaped to a row before the region, is the row the reference broadcasts it to: entry (0, j) of both is entry j. -/
theorem at3_main_v32 (c : Dev nD) : W3 m ρ c (Proc.devRef .tc main_v32) = val_main_v38 (F := Ideal) (m ((c : Thread nD τ).loc main_arg8)) := by
  show StableHlo.after hostOps1 (W2 m ρ c) (Proc.devRef .tc main_v32) = _
  after_results_simp
  rw [at2_main_arg8 m ρ c]
  funext (i : Cert.ReferenceIdeal.S1x128.Idx)
  refine (shapeCast_apply _ _ i (idx_main_v38 i) ?_).trans (val_main_v38_apply _ i).symm
  show (Cert.ReferenceIdeal.S128.rowMajor (idx_main_v38 i)).val = (Cert.ReferenceIdeal.S1x128.rowMajor i).val
  rewrite [Shape.rowMajor_val_two, Shape.rowMajor_val_one]
  have h0 : (i 0).val < 1 := (i 0).isLt
  show (i 1).val = (i 0).val * 128 + (i 1).val
  omega

/-- Layer 2's output as a function of the arguments. -/
abbrev hid2 (c : Dev nD) : FVec Ideal Cert.ReferenceIdeal.S100000x128 .f32 :=
  dense2 (F := Ideal) (agg128 (F := Ideal) (hid1 m c) (m ((c : Thread nD τ).loc main_arg1)) (m ((c : Thread nD τ).loc main_arg2))) (hid1 m c) (m ((c : Thread nD τ).loc main_arg7)) (val_main_v38 (F := Ideal) (m ((c : Thread nD τ).loc main_arg8))) (m ((c : Thread nD τ).loc main_arg9))

theorem at4_main_v33 (c : Dev nD) : W4 m ρ c (Proc.devRef .tc main_v33) = hid2 m c := by
  refine ((W4_arr m ρ c 5).trans (Dense1.final (V3 m ρ) c)).trans ?_
  show dense2 (F := Ideal) (W3 m ρ c (Proc.devRef .tc main_v31)) (W3 m ρ c (Proc.devRef .tc main_v18)) (W3 m ρ c (Proc.devRef .tc main_arg7)) (W3 m ρ c (Proc.devRef .tc main_v32)) (W3 m ρ c (Proc.devRef .tc main_arg9)) = _
  rw [at3_main_v31 m ρ c, at3_main_v18 m ρ c, at3_main_arg7 m ρ c, at3_main_v32 m ρ c, at3_main_arg9 m ρ c]

/-! ## Layer 3 -/

theorem at5_main_v33 (c : Dev nD) : W5 m ρ c (Proc.devRef .tc main_v33) = hid2 m c := by
  show StableHlo.after hostOps2 (W4 m ρ c) (Proc.devRef .tc main_v33) = _
  after_results_simp
  exact at4_main_v33 m ρ c

set_option maxHeartbeats 4000000 in
/-- The third stretch computes the aggregation of layer 2's output. -/
theorem at5_main_v46 (c : Dev nD) : W5 m ρ c (Proc.devRef .tc main_v46) = agg128 (F := Ideal) (hid2 m c) (m ((c : Thread nD τ).loc main_arg1)) (m ((c : Thread nD τ).loc main_arg2)) := by
  show StableHlo.after hostOps2 (W4 m ρ c) (Proc.devRef .tc main_v46) = _
  after_results_simp
  rw [at4_main_v33 m ρ c, at4_main_v1 m ρ c, at4_main_v3 m ρ c, at4_main_arg2 m ρ c]
  rfl

set_option maxHeartbeats 4000000 in
/-- The bias, reshaped to a row before the region, is the row the reference broadcasts it to: entry (0, j) of both is entry j. -/
theorem at5_main_v47 (c : Dev nD) : W5 m ρ c (Proc.devRef .tc main_v47) = val_main_v58 (F := Ideal) (m ((c : Thread nD τ).loc main_arg11)) := by
  show StableHlo.after hostOps2 (W4 m ρ c) (Proc.devRef .tc main_v47) = _
  after_results_simp
  rw [at4_main_arg11 m ρ c]
  funext (i : Cert.ReferenceIdeal.S1x3.Idx)
  refine (shapeCast_apply _ _ i (idx_main_v58 i) ?_).trans (val_main_v58_apply _ i).symm
  show (Cert.ReferenceIdeal.S3.rowMajor (idx_main_v58 i)).val = (Cert.ReferenceIdeal.S1x3.rowMajor i).val
  rewrite [Shape.rowMajor_val_two, Shape.rowMajor_val_one]
  have h0 : (i 0).val < 1 := (i 0).isLt
  show (i 1).val = (i 0).val * 3 + (i 1).val
  omega

/-- The result buffer after the run: the three layers composed. -/
theorem result_is_net (c : Dev nD) : W6 m ρ c (Proc.devRef .tc main_v48)
    = net (F := Ideal) (m ((c : Thread nD τ).loc main_arg0)) (m ((c : Thread nD τ).loc main_arg1)) (m ((c : Thread nD τ).loc main_arg2)) (m ((c : Thread nD τ).loc main_arg4)) (val_main_v18 (F := Ideal) (m ((c : Thread nD τ).loc main_arg5))) (m ((c : Thread nD τ).loc main_arg6))
        (m ((c : Thread nD τ).loc main_arg7)) (val_main_v38 (F := Ideal) (m ((c : Thread nD τ).loc main_arg8))) (m ((c : Thread nD τ).loc main_arg9))
        (m ((c : Thread nD τ).loc main_arg10)) (val_main_v58 (F := Ideal) (m ((c : Thread nD τ).loc main_arg11))) (m ((c : Thread nD τ).loc main_arg12)) := by
  refine ((W6_arr m ρ c 5).trans (Dense2.final (V5 m ρ) c)).trans ?_
  show dense3 (F := Ideal) (W5 m ρ c (Proc.devRef .tc main_v46)) (W5 m ρ c (Proc.devRef .tc main_v33)) (W5 m ρ c (Proc.devRef .tc main_arg10)) (W5 m ρ c (Proc.devRef .tc main_v47)) (W5 m ρ c (Proc.devRef .tc main_arg12)) = _
  rw [at5_main_v46 m ρ c, at5_main_v33 m ρ c, at5_main_arg10 m ρ c, at5_main_v47 m ρ c, at5_main_arg12 m ρ c]
  rfl

/-- The kernel program's run with its result named: the network of the arguments. -/
theorem run : θ_run defs (onTc (τ := τ) (main (F := Ideal))) ⟨m, fun _ => 0, ρ⟩ (fun r => ∀ c : Dev nD,
      r.2.mem ((c.tc : Thread nD τ).loc main_v48)
        = net (F := Ideal) (m ((c : Thread nD τ).loc main_arg0)) (m ((c : Thread nD τ).loc main_arg1)) (m ((c : Thread nD τ).loc main_arg2)) (m ((c : Thread nD τ).loc main_arg4)) (val_main_v18 (F := Ideal) (m ((c : Thread nD τ).loc main_arg5))) (m ((c : Thread nD τ).loc main_arg6))
            (m ((c : Thread nD τ).loc main_arg7)) (val_main_v38 (F := Ideal) (m ((c : Thread nD τ).loc main_arg8))) (m ((c : Thread nD τ).loc main_arg9))
            (m ((c : Thread nD τ).loc main_arg10)) (val_main_v58 (F := Ideal) (m ((c : Thread nD τ).loc main_arg11))) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_is_net m ρ c), (h c).2⟩) (Cert.KernelIdeal.RunValue.run_value (F := Ideal) m ρ)

end Cert.KernelIdeal.Chain

end
-- ==== Proof.lean ====
/-
  The certificate of a three-layer graph-convolution network: the kernel program against its jnp reference.

  Each layer is  h' = act((A(h) · W_rel + b) + h · W_root)  with  A(h)  the edge-weighted sum of the neighbours'
  rows (a gather by source index, a product with the edge weight, a scatter-add by destination index) and `act` the
  rectifier in the first two layers, the identity in the third. The reference computes all of it on the host. The
  kernel program computes A(h) on the host with the same operations and the dense half of each layer in a Pallas
  kernel over 20 blocks of 5000 rows, the operands narrowed to bf16 and the products accumulated in f32.

  At the exact instance the narrowing is the identity and a product into a zero accumulator is the finite sum over
  the contracted channel axis, so entry (n, j) of a kernel's output block is the same sum the host's matrix product has
  at that entry; the additions are in the same order on both sides and no law of arithmetic beyond that is used, so the
  inputs' finiteness is never opened. Both results are therefore the same function `net` of the arguments (Layers),
  the kernel's by following its buffers from the launch through the three regions (Chain, over Dense0 … Dense2), the
  reference's by unfolding its stages (Layers.ref_is_net). The frames are the generated ones; the idealization rewrote
  no operation, so there is nothing to preserve.
-/
import proofs.«145444_j32693291057797_1_alg».proof.Defs
import proofs.«145444_j32693291057797_1_alg».proof.Proof.Gen.Kernel
import proofs.«145444_j32693291057797_1_alg».proof.Proof.Gen.Kernel.Frame
import proofs.«145444_j32693291057797_1_alg».proof.Proof.Gen.KernelIdeal
import proofs.«145444_j32693291057797_1_alg».proof.Proof.Gen.KernelIdeal.Frame
import proofs.«145444_j32693291057797_1_alg».proof.Proof.Gen.ReferenceIdeal
import proofs.«145444_j32693291057797_1_alg».proof.Proof.Gen.ReferenceIdeal.Run
import proofs.«145444_j32693291057797_1_alg».proof.Proof.Gen.ReferenceIdeal.Read
import proofs.«145444_j32693291057797_1_alg».proof.Proof.Gen.Pre_finite_inputs
import proofs.«145444_j32693291057797_1_alg».proof.Proof.Layers
import proofs.«145444_j32693291057797_1_alg».proof.Proof.Chain
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the kernel program runs and keeps its arguments, at the word level and at the exact instance
  fun m ρ _ => Cert.Kernel.Gen.frame m ρ,
  fun m ρ _ => Cert.KernelIdeal.Gen.frame m ρ,
  -- the reference runs and keeps its arguments: its run with the result dropped
  fun m ρ _ => (θ_run Cert.ReferenceIdeal.defs _ _).mono (fun _ h c => (h c).2) (Cert.ReferenceIdeal.Value.run (F := Ideal) m ρ),
  -- no operation was rewritten
  trivial,
  -- both results are `net` of arguments that agree
  by
    intro m ρ m' ρ' _ hagree
    refine ⟨_, Cert.KernelIdeal.Chain.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, Cert.Layers.ref_is_net]
    obtain ⟨h0, h1, h2, -, h4, h5, h6, h7, h8, h9, h10, h11, h12⟩ := hagree c
    rw [h0, h1, h2, h4, h5, h6, h7, h8, h9, h10, h11, h12]⟩

end Cert.Proof

end
